-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  main_v3
-- ==== Kernel.lean ====
abbrev S32x256x64x64 : Shape := ⟨4, ![32, 256, 64, 64]⟩
abbrev S32x512x64x64 : Shape := ⟨4, ![32, 512, 64, 64]⟩
abbrev S1x256x64x64 : Shape := ⟨4, ![1, 256, 64, 64]⟩
abbrev S256x1 : Shape := ⟨2, ![256, 1]⟩
abbrev S256x64x64 : Shape := ⟨3, ![256, 64, 64]⟩
abbrev S256x64 : Shape := ⟨2, ![256, 64]⟩
abbrev S256 : Shape := ⟨1, ![256]⟩
abbrev S1 : Shape := ⟨1, ![1]⟩
abbrev S1x1 : Shape := ⟨2, ![1, 1]⟩
abbrev S256x1x1 : Shape := ⟨3, ![256, 1, 1]⟩

abbrev nBuf : Space → Nat
  | .hbm => 2
  | .vmem => 5
  | .smem => 0
  | _ => 0

abbrev bufTy : (tb : Table) → Fin (tcTables nBuf tb) → BufTy
  | .hbm, ⟨0, _⟩ => ⟨S32x256x64x64, .f32⟩
  | .hbm, ⟨1, _⟩ => ⟨S32x512x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S1x256x64x64, .f32⟩
  | .local _ .vmem, ⟨3, _⟩ => ⟨S1x256x64x64, .f32⟩
  | .local _ .vmem, ⟨4, _⟩ => ⟨S256x1, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  reduces_S256x64x64_S256x64 : S256x64x64.Reduces [1] S256x64
  reduces_S256x64_S256 : S256x64.Reduces [1] S256
  shapeCasts_S256_S256x1 : S256.ShapeCasts S256x1
  reduces_S256x1_S1 : S256x1.Reduces [0] S1
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1_S256x1x1 : S256x1.ShapeCasts S256x1x1
  broadcasts_S256x1x1_S256x64x64 : S256x1x1.Broadcasts S256x64x64
  shapeCasts_S256x64x64_S1x256x64x64 : S256x64x64.ShapeCasts S1x256x64x64
  shapeCasts_S256x1x1_S256x1x1 : S256x1x1.ShapeCasts S256x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S32x256x64x64.size a
  hwx0_0 : ∀ i : grid0.Coords, EltTy.bits .f32 = 32 ∨ (Rect.block (s := S32x256x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64x64.size a ≤ S32x512x64x64.size a
  hwx0_1 : ∀ i : grid0.Coords, EltTy.bits .f32 = 32 ∨ (Rect.block (s := S32x512x64x64) S1x256x64x64.size (cc0_transform_1 i) (hinb0_1 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S32x256x64x64 : Shape := ⟨4, ![32, 256, 64, 64]⟩
abbrev S32x256x4096 : Shape := ⟨3, ![32, 256, 4096]⟩
abbrev S32x2x256x4096 : Shape := ⟨4, ![32, 2, 256, 4096]⟩
abbrev S1x256x4096 : Shape := ⟨3, ![1, 256, 4096]⟩
abbrev S1x2x256x4096 : Shape := ⟨4, ![1, 2, 256, 4096]⟩
abbrev S1x256 : Shape := ⟨2, ![1, 256]⟩
abbrev S1x256x1 : Shape := ⟨3, ![1, 256, 1]⟩
abbrev S1x1 : Shape := ⟨2, ![1, 1]⟩
abbrev S1x1x1 : Shape := ⟨3, ![1, 1, 1]⟩
abbrev S1x1x256x4096 : Shape := ⟨4, ![1, 1, 256, 4096]⟩
abbrev S1x1x256x1 : Shape := ⟨4, ![1, 1, 256, 1]⟩
abbrev S32x512x64x64 : Shape := ⟨4, ![32, 512, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x2x256x4096, .f32⟩
  | .hbm, ⟨3, _⟩ => ⟨S32x512x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x2x256x4096, .f32⟩
  | .local _ .vmem, ⟨3, _⟩ => ⟨S1x2x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  reduces_S1x256x4096_S1x256 : S1x256x4096.Reduces [2] S1x256
  shapeCasts_S1x256_S1x256x1 : S1x256.ShapeCasts S1x256x1
  broadcasts_S1x256x1_S1x256x4096 : S1x256x1.Broadcasts S1x256x4096
  reduces_S1x256x1_S1x1 : S1x256x1.Reduces [1] S1x1
  shapeCasts_S1x1_S1x1x1 : S1x1.ShapeCasts S1x1x1
  broadcasts_S1x1x1_S1x256x1 : S1x1x1.Broadcasts S1x256x1
  shapeCasts_S1x256x4096_S1x1x256x4096 : S1x256x4096.ShapeCasts S1x1x256x4096
  shapeCasts_S1x256x1_S1x1x256x1 : S1x256x1.ShapeCasts S1x1x256x1
  shapeCasts_S1x1x256x1_S1x1x256x1 : S1x1x256x1.ShapeCasts S1x1x256x1
  broadcasts_S1x1x256x1_S1x1x256x4096 : S1x1x256x1.Broadcasts S1x1x256x4096
  inb_S1x2x256x4096_S1x1x256x4096_0_0_0_0 : ∀ a, (![0, 0, 0, 0] : Fin 4 → Nat) a + S1x1x256x4096.size a ≤ S1x2x256x4096.size a
  h_S1x1x256x4096 : 0 < S1x1x256x4096.numel
  inb_S1x2x256x4096_S1x1x256x4096_0_1_0_0 : ∀ a, (![0, 1, 0, 0] : Fin 4 → Nat) a + S1x1x256x4096.size a ≤ S1x2x256x4096.size a
  shapeCasts_S32x2x256x4096_S32x512x64x64 : S32x2x256x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256x4096.size a ≤ S32x2x256x4096.size a
  hwx0_1 : ∀ i : grid0.Coords, EltTy.bits .f32 = 32 ∨ (Rect.block (s := S32x2x256x4096) S1x2x256x4096.size (cc0_transform_1 i) (hinb0_1 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.Spec.lean ====
/-
  The pooled-and-normalized image, as ONE function of the input array, index by index, on the extended reals.

  For an input x[n, c, h, w] (32 samples, 256 channels, a 64 x 64 plane per channel) the result has 512 channels:
    * channel C < 256 holds the plane x[n, C, ·, ·] scaled by  rsqrt (max (∑ x[n, C, ·, ·]²) ε)  — each plane divided by its
      Euclidean norm, the norm's square clamped below by ε = 1e-24;
    * channel 256 + c holds, at every pixel, the one number  μ[n, c] · rsqrt (max (∑_c' μ[n, c']²) ε)  where
      μ[n, c] = (∑ x[n, c, ·, ·]) · 2⁻¹² is the plane's mean — the vector of means divided by its Euclidean norm.
  The plane sums are written here as the sum over the columns w of the sums over the rows h; `sum_flat` says that the sum over the
  4096 positions p of a plane laid out row after row (p = 64·h + w) is the same sum, which is all the two programs differ by.
-/
import Idealize.ShloMosaic.PureOps.Ideal
import Idealize.ShloMosaic.Lib.ValueIdx

noncomputable section

open scoped BigOperators

namespace Cert.Spec

open Idealize.ShloMosaic Idealize.ShloMosaic.ValueIdx

/-- The input's shape, the result's, and the literals both programs share. -/
abbrev SIn : Shape := ⟨4, ![32, 256, 64, 64]⟩
abbrev SOut : Shape := ⟨4, ![32, 512, 64, 64]⟩
/-- The clamp ε = 1e-24 (as the f32 word both programs carry). -/
abbrev epsSq : EReal := Ideal.ofBits .f32 0x179ABE15#32
/-- 2⁻¹² = 1 / (64 · 64). -/
abbrev invHW : EReal := Ideal.ofBits .f32 0x39800000#32

/-- The factor a plane is scaled by, from the sum of its squares. -/
def scaleOf (q : EReal) : EReal := Ideal.rsqrt (max q epsSq)

/-- Entry `c` of the normalized vector of means, from the 256 plane sums of one sample. -/
def poolOf (s : Fin 256 → EReal) (c : Fin 256) : EReal :=
  (s c * invHW) * Ideal.rsqrt (max (∑ c' : Fin 256, (s c' * invHW) * (s c' * invHW)) epsSq)

/-- The sum of plane (n, c), columns outermost. -/
def chanSum (x : SIn.Idx → EReal) (n : Fin 32) (c : Fin 256) : EReal :=
  ∑ w : Fin 64, ∑ h : Fin 64, x (ix4 n c h w)

/-- The sum of the squares of plane (n, c), columns outermost. -/
def chanSq (x : SIn.Idx → EReal) (n : Fin 32) (c : Fin 256) : EReal :=
  ∑ w : Fin 64, ∑ h : Fin 64, x (ix4 n c h w) * x (ix4 n c h w)

/-- THE RESULT, index by index. -/
def G (x : SIn.Idx → EReal) : SOut.Idx → EReal := fun j =>
  if h : (j 1).val < 256 then
    x (ix4 (j 0) ⟨(j 1).val, h⟩ (j 2) (j 3)) * scaleOf (chanSq x (j 0) ⟨(j 1).val, h⟩)
  else
    poolOf (chanSum x (j 0)) ⟨(j 1).val - 256, by have h1 : (j 1).val < 512 := (j 1).isLt; omega⟩

/-- The result on a channel of the first half. -/
theorem G_lo (x : SIn.Idx → EReal) (j : SOut.Idx) (c : Fin 256) (hc : (j 1).val = c.val) :
    G x j = x (ix4 (j 0) c (j 2) (j 3)) * scaleOf (chanSq x (j 0) c) := by
  have h : (j 1).val < 256 := by rw [hc]; exact c.isLt
  have e : (⟨(j 1).val, h⟩ : Fin 256) = c := Fin.ext hc
  unfold G
  rw [dif_pos h, e]

/-- The result on a channel of the second half. -/
theorem G_hi (x : SIn.Idx → EReal) (j : SOut.Idx) (c : Fin 256) (hc : (j 1).val = 256 + c.val) :
    G x j = poolOf (chanSum x (j 0)) c := by
  have h : ¬ (j 1).val < 256 := by omega
  unfold G
  rw [dif_neg h]
  congr 1
  exact Fin.ext (by show (j 1).val - 256 = c.val; omega)

/-- A sum over the 4096 positions of a plane laid out row after row is the sum over its columns of the sums over its rows. -/
theorem sum_flat {M : Type*} [AddCommMonoid M] (g : Fin 64 → Fin 64 → M) :
    ∑ p : Fin 4096, g ⟨p.val / 64, by have := p.isLt; omega⟩ ⟨p.val % 64, Nat.mod_lt _ (by decide)⟩
      = ∑ w : Fin 64, ∑ h : Fin 64, g h w := by
  rw [Finset.sum_comm]
  rw [← Fintype.sum_prod_type' (f := fun (h w : Fin 64) => g h w)]
  refine (Fintype.sum_equiv (finProdFinEquiv (m := 64) (n := 64)) _ _ fun hw => ?_).symm
  obtain ⟨h, w⟩ := hw
  have hh := h.isLt
  have hw := w.isLt
  show g h w = g ⟨(w.val + 64 * h.val) / 64, _⟩ ⟨(w.val + 64 * h.val) % 64, _⟩
  have e1 : h = ⟨(w.val + 64 * h.val) / 64, by omega⟩ := Fin.ext (by show h.val = (w.val + 64 * h.val) / 64; omega)
  have e2 : w = ⟨(w.val + 64 * h.val) % 64, Nat.mod_lt _ (by decide)⟩ := Fin.ext (by show w.val = (w.val + 64 * h.val) % 64; omega)
  exact congrArg₂ g e1 e2

end Cert.Spec

end
-- ==== Proof.KernelBlock.lean ====
/-
  The kernel's stored values, read at an index, on the extended reals.

  On one sample's block X[0, c, h, w] the first phase computes, for every plane c, the sum of the plane and the sum of its squares —
  each as the sum over the columns w of the sums over the rows h —, stores X[0, c, h, w] · rsqrt (max (∑ X[0, c]²) ε) (`scaled_apply`)
  and parks the vector  μ[c] · rsqrt (max (∑_c' μ[c']²) ε),  μ[c] = (∑ X[0, c]) · 2⁻¹²  (`pooled_apply`); the second phase stores a
  parked vector S spread over every plane, S[c] at (c, h, w) (`spread_apply`). The reshapes and broadcasts in between only rename
  indices: each is read at the index it names, the reductions as finite sums over the reduced coordinate.
-/
import proofs.«135117_g2000705136397570_pallasbulk_321_5_alg».proof.Proof.Spec
import proofs.«135117_g2000705136397570_pallasbulk_321_5_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Idealize.ShloMosaic Idealize.ShloMosaic.ValueIdx Cert.KernelIdeal Cert.KernelIdeal.Gen Cert.Spec

/-- The block with its unit axis dropped: entry (c, h, w) is the block's entry (0, c, h, w). -/
private theorem plane_apply (X : S1x256x64x64.Idx → EReal) (c : Fin 256) (h w : Fin 64) :
    k0_pay1 (F := Ideal) X (ix3 c h w) = X (ix4 0 c h w) := by
  unfold k0_pay1
  refine shapeCast_apply X _ (ix3 c h w) (ix4 0 c h w) ?_
  rw [Shape.rowMajor_val_four, Shape.rowMajor_val_three]
  show ((0 * 256 + c.val) * 64 + h.val) * 64 + w.val = (c.val * 64 + h.val) * 64 + w.val
  omega

/-- Summing a [256, 64, 64] array over its rows and then over its columns: entry c is the sum over the columns w of the
    sums over the rows h of the plane c. -/
private theorem planeSum_apply (V : FVec Ideal S256x64x64 .f32) (c : Fin 256) :
    multiReduction .add [1] S256
        (multiReduction .add [1] S256x64 V 0x00000000#32 reduces_S256x64x64_S256x64 (.inl rfl) rfl)
        0x00000000#32 reduces_S256x64_S256 (.inl rfl) rfl (ix1 c)
      = ∑ w : Fin 64, ∑ h : Fin 64, V (ix3 c h w) := by
  refine (Ideal.multiReduction_add_single _ _ reduces_S256x64_S256 _ _ (ix1 c)).trans ?_
  show ∑ w : Fin 64, _ = ∑ w : Fin 64, _
  refine Finset.sum_congr rfl fun w _ => ?_
  refine (Ideal.multiReduction_add_single V _ reduces_S256x64x64_S256x64 _ _ _).trans ?_
  show ∑ h : Fin 64, _ = ∑ h : Fin 64, _
  refine Finset.sum_congr rfl fun h _ => ?_
  refine congrArg V (funext fun a => ?_)
  match a with
  | ⟨0, _⟩ => rfl
  | ⟨1, _⟩ => rfl
  | ⟨2, _⟩ => rfl

/-- The vector of means before it is normalized: entry c' is the plane sum times 2⁻¹². -/
private theorem mean_apply (X : S1x256x64x64.Idx → EReal) (c' : Fin 256) :
    mulf (F := Ideal)
        (shapeCast S256x1
          (multiReduction .add [1] S256
            (multiReduction .add [1] S256x64 (k0_pay1 (F := Ideal) X) 0x00000000#32 reduces_S256x64x64_S256x64 (.inl rfl) rfl)
            0x00000000#32 reduces_S256x64_S256 (.inl rfl) rfl)
          shapeCasts_S256_S256x1)
        (broadcast S256x1 (Scalar.ofBits (F := Ideal) .f32 0x39800000#32)) (ix2 c' 0)
      = (∑ w' : Fin 64, ∑ h' : Fin 64, X (ix4 0 c' h' w')) * invHW := by
  refine (mulf_apply _ _ _).trans ?_
  refine congrArg₂ (· * ·) ?_ rfl
  refine (shapeCast_apply (s := S256) (t := S256x1) _ _ (ix2 c' 0) (ix1 c') ?_).trans ?_
  · rw [Shape.rowMajor_val_one, Shape.rowMajor_val_two]
    show c'.val = c'.val * 1 + 0
    omega
  refine (planeSum_apply _ c').trans ?_
  exact Finset.sum_congr rfl fun w' _ => Finset.sum_congr rfl fun h' _ => plane_apply X c' h' w'

/-- The scaled plane the first phase stores: entry (c, h, w) of the block is the input's entry times the plane's factor. -/
theorem scaled_apply (X : S1x256x64x64.Idx → EReal) (c : Fin 256) (h w : Fin 64) :
    k0_pay3 (F := Ideal) X (ix4 0 c h w)
      = X (ix4 0 c h w) * scaleOf (∑ w' : Fin 64, ∑ h' : Fin 64, X (ix4 0 c h' w') * X (ix4 0 c h' w')) := by
  have hq : multiReduction .add [1] S256
        (multiReduction .add [1] S256x64 (mulf (k0_pay1 (F := Ideal) X) (k0_pay1 (F := Ideal) X))
          0x00000000#32 reduces_S256x64x64_S256x64 (.inl rfl) rfl)
        0x00000000#32 reduces_S256x64_S256 (.inl rfl) rfl (ix1 c)
      = ∑ w' : Fin 64, ∑ h' : Fin 64, X (ix4 0 c h' w') * X (ix4 0 c h' w') := by
    refine (planeSum_apply _ c).trans ?_
    refine Finset.sum_congr rfl fun w' _ => Finset.sum_congr rfl fun h' _ => ?_
    show k0_pay1 (F := Ideal) X (ix3 c h' w') * k0_pay1 (F := Ideal) X (ix3 c h' w') = _
    rw [plane_apply]
  unfold k0_pay3
  refine (shapeCast_apply (s := S256x64x64) (t := S1x256x64x64) _ _ (ix4 0 c h w) (ix3 c h w) ?_).trans ?_
  · rw [Shape.rowMajor_val_three, Shape.rowMajor_val_four]
    show (c.val * 64 + h.val) * 64 + w.val = ((0 * 256 + c.val) * 64 + h.val) * 64 + w.val
    omega
  refine (mulf_apply _ _ _).trans ?_
  refine congrArg₂ (· * ·) (plane_apply X c h w) ?_
  refine (broadcastTo_apply (s := S256x1x1) (t := S256x64x64) _ _ (ix3 c h w) (ix3 c 0 0) ?_).trans ?_
  · intro a
    match a with
    | ⟨0, _⟩ => rfl
    | ⟨1, _⟩ => rfl
    | ⟨2, _⟩ => rfl
  refine (shapeCast_apply (s := S256x1) (t := S256x1x1) _ _ (ix3 c 0 0) (ix2 c 0) ?_).trans ?_
  · rw [Shape.rowMajor_val_two, Shape.rowMajor_val_three]
    show c.val * 1 + 0 = (c.val * 1 + 0) * 1 + 0
    omega
  unfold scaleOf
  show Ideal.rsqrt (max (shapeCast S256x1 _ shapeCasts_S256_S256x1 (ix2 c 0)) epsSq) = _
  refine congrArg (fun q => Ideal.rsqrt (max q epsSq)) ?_
  refine (shapeCast_apply (s := S256) (t := S256x1) _ _ (ix2 c 0) (ix1 c) ?_).trans hq
  rw [Shape.rowMajor_val_one, Shape.rowMajor_val_two]
  show c.val = c.val * 1 + 0
  omega

/-- The normalized vector of means the first phase parks: entry c. -/
theorem pooled_apply (X : S1x256x64x64.Idx → EReal) (c : Fin 256) :
    k0_pay2 (F := Ideal) X (ix2 c 0) = poolOf (fun c' => ∑ w' : Fin 64, ∑ h' : Fin 64, X (ix4 0 c' h' w')) c := by
  unfold k0_pay2
  refine (congrFun (shapeCast_self _ _) (ix2 c 0)).trans ?_
  refine (mulf_apply _ _ _).trans ?_
  unfold poolOf
  refine congrArg₂ (· * ·) (mean_apply X c) ?_
  refine (broadcastTo_apply (s := S1x1) (t := S256x1) _ _ (ix2 c 0) (ix2 0 0) ?_).trans ?_
  · intro a
    match a with
    | ⟨0, _⟩ => rfl
    | ⟨1, _⟩ => rfl
  show Ideal.rsqrt (max (shapeCast S1x1 _ shapeCasts_S1_S1x1 (ix2 0 0)) epsSq) = _
  refine congrArg (fun q => Ideal.rsqrt (max q epsSq)) ?_
  refine (shapeCast_apply (s := S1) (t := S1x1) _ _ (ix2 0 0) (ix1 0) ?_).trans ?_
  · rw [Shape.rowMajor_val_one, Shape.rowMajor_val_two]
    show 0 = 0 * 1 + 0
    omega
  refine (Ideal.multiReduction_add_single _ _ reduces_S256x1_S1 _ _ (ix1 0)).trans ?_
  show ∑ c' : Fin 256, _ = ∑ c' : Fin 256, _
  refine Finset.sum_congr rfl fun c' _ => ?_
  have e : reduces_S256x1_S1.lift (ix1 0) c' = ix2 c' 0 := funext fun a =>
    match a with
    | ⟨0, _⟩ => rfl
    | ⟨1, _⟩ => rfl
  rw [e]
  refine (mulf_apply _ _ _).trans ?_
  exact congrArg₂ (· * ·) (mean_apply X c') (mean_apply X c')

/-- The second phase spreads the parked vector over the plane: entry (c, h, w) is entry c of the vector. -/
theorem spread_apply (S : S256x1.Idx → EReal) (c : Fin 256) (h w : Fin 64) :
    k0_pay4 (F := Ideal) S (ix4 0 c h w) = S (ix2 c 0) := by
  unfold k0_pay4
  refine (shapeCast_apply (s := S256x64x64) (t := S1x256x64x64) _ _ (ix4 0 c h w) (ix3 c h w) ?_).trans ?_
  · rw [Shape.rowMajor_val_three, Shape.rowMajor_val_four]
    show (c.val * 64 + h.val) * 64 + w.val = ((0 * 256 + c.val) * 64 + h.val) * 64 + w.val
    omega
  refine (broadcastTo_apply (s := S256x1x1) (t := S256x64x64) _ _ (ix3 c h w) (ix3 c 0 0) ?_).trans ?_
  · intro a
    match a with
    | ⟨0, _⟩ => rfl
    | ⟨1, _⟩ => rfl
    | ⟨2, _⟩ => rfl
  refine (congrFun (shapeCast_self _ _) (ix3 c 0 0)).trans ?_
  refine shapeCast_apply (s := S256x1) (t := S256x1x1) S _ (ix3 c 0 0) (ix2 c 0) ?_
  rw [Shape.rowMajor_val_two, Shape.rowMajor_val_three]
  show c.val * 1 + 0 = (c.val * 1 + 0) * 1 + 0
  omega

end Cert.KernelIdeal.Block

end
-- ==== Proof.KernelValue.lean ====
/-
  The kernel's run, read as a value: its result array ends at the specification `G` of its argument.

  The grid's point t is sample t / 2 in phase t % 2. At an even point the body reads the sample's block and leaves the scaled planes in
  the output's buffer and the normalized means in the scratch; at the odd point after it the scratch still holds what the even point
  left, and the body spreads it over the output's buffer. The output window sits on channels [256·(t % 2), 256·(t % 2) + 256) of sample
  t / 2, so what point t writes back is exactly that block of `G` of the argument (`flushed_eq`); the 64 blocks tile the result array
  (`final`), entry (n, C, h, w) lying in the block of point 2 n + C / 256.
-/
import proofs.«135117_g2000705136397570_pallasbulk_321_5_alg».proof.Proof.Spec
import proofs.«135117_g2000705136397570_pallasbulk_321_5_alg».proof.Proof.KernelBlock
import proofs.«135117_g2000705136397570_pallasbulk_321_5_alg».proof.Proof.Gen.KernelIdeal.Value
import Idealize.ShloMosaic.Lib.Pipeline.Value
import Idealize.ShloMosaic.Lib.ValueIdx
import Idealize.ShloMosaic.Lib.Tactic

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable {F : FTy → Type} [FloatOps F]

/-! ## What each phase leaves, as the body's payloads -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Phase 0 leaves in the output's buffer its one covering store's payload: the scaled planes of the input block. -/
theorem outA (c : Dev nD) (i : grid0.Coords) (a2 : Memref sig .tc .vmem S1x256x64x64 .f32) (h2 : a2.IsWhole)
    (a3 : Memref sig .tc .vmem S1x256x64x64 .f32) (h3 : a3.IsWhole) (a4 : Memref sig .tc .vmem S256x1 .f32) (h4 : a4.IsWhole)
    (hc0 : cond0_0 i) (hc1 : ¬cond0_1 i) (x0 : Vec F S1x256x64x64 .f32) :
    out0_A_1 c i a2 h2 a3 h3 a4 h4 hc0 hc1 x0 = k0_pay3 x0 := by
  unfold out0_A_1
  rw [View.read_writes_eq_canon _ _ _ (cover0_A_1 c i a2 h2 a3 h3 a4 h4 hc0 hc1 x0)]
  unfold kernelRun0_A
  dsimp only
  sl_unfold_words
  rw [View.canon_unit_zero hz4]
  simp only [View.readAt_eq_ld, h2.read_unread, View.ld_unit_zero (S := S1x256x64x64) hz4]

/-- Phase 0 leaves in the scratch the normalized vector of means of the input block. -/
theorem soutA (c : Dev nD) (i : grid0.Coords) (a2 : Memref sig .tc .vmem S1x256x64x64 .f32) (h2 : a2.IsWhole)
    (a3 : Memref sig .tc .vmem S1x256x64x64 .f32) (h3 : a3.IsWhole) (a4 : Memref sig .tc .vmem S256x1 .f32) (h4 : a4.IsWhole)
    (hc0 : cond0_0 i) (hc1 : ¬cond0_1 i) (x0 : Vec F S1x256x64x64 .f32) :
    sout0_A_0 c i a2 h2 a3 h3 a4 h4 hc0 hc1 x0 = k0_pay2 x0 := by
  unfold sout0_A_0
  rw [View.read_writes_eq_canon _ _ _ (scover0_A_0 c i a2 h2 a3 h3 a4 h4 hc0 hc1 x0)]
  unfold kernelRun0_A
  dsimp only
  sl_unfold_words
  rw [View.canon_unit_zero hz2]
  simp only [View.readAt_eq_ld, h2.read_unread, View.ld_unit_zero (S := S1x256x64x64) hz4]

/-- Phase 1 leaves in the output's buffer the scratch's vector spread over every plane. -/
theorem outB (c : Dev nD) (i : grid0.Coords) (a2 : Memref sig .tc .vmem S1x256x64x64 .f32) (h2 : a2.IsWhole)
    (a3 : Memref sig .tc .vmem S1x256x64x64 .f32) (h3 : a3.IsWhole) (a4 : Memref sig .tc .vmem S256x1 .f32) (h4 : a4.IsWhole)
    (hc0 : ¬cond0_0 i) (hc1 : cond0_1 i) (x0 : Vec F S1x256x64x64 .f32) (xs0 : Vec F S256x1 .f32) :
    out0_B_1 c i a2 h2 a3 h3 a4 h4 hc0 hc1 x0 xs0 = k0_pay4 xs0 := by
  unfold out0_B_1
  rw [View.read_writes_eq_canon _ _ _ (cover0_B_1 c i a2 h2 a3 h3 a4 h4 hc0 hc1 x0 xs0)]
  unfold kernelRun0_B
  dsimp only
  sl_unfold_words
  rw [View.canon_unit_zero hz4]
  simp only [View.readAt_eq_ld, h4.read_unread, View.ld_unit_zero (S := S256x1) hz2]

/-! ## A block of the result is a block of the specification -/

/-- A block index has first coordinate 0. -/
theorem blockIdx_eq (y : S1x256x64x64.Idx) : ∃ (c : Fin 256) (h w : Fin 64), y = ix4 0 c h w := by
  refine ⟨y 1, y 2, y 3, ?_⟩
  funext a
  match a with
  | ⟨0, _⟩ => exact Fin.ext (by have h : (y 0).val < 1 := (y 0).isLt; show (y 0).val = 0; omega)
  | ⟨1, _⟩ => rfl
  | ⟨2, _⟩ => rfl
  | ⟨3, _⟩ => rfl

/-- If the block `X` is sample `n` of `x`, the scaled planes of `X` are channels [0, 256) of sample `n` of the specification. -/
theorem scaled_block (X : S1x256x64x64.Idx → EReal) (x : SIn.Idx → EReal) (n : Fin 32)
    (hX : ∀ (c : Fin 256) (h w : Fin 64), X (ix4 0 c h w) = x (ix4 n c h w))
    (y : S1x256x64x64.Idx) (j : SOut.Idx) (h0 : (j 0).val = n.val) (h1 : (j 1).val = (y 1).val)
    (h2 : (j 2).val = (y 2).val) (h3 : (j 3).val = (y 3).val) :
    k0_pay3 (F := Ideal) X y = G x j := by
  obtain ⟨c, h, w, rfl⟩ := blockIdx_eq y
  have e0 : j 0 = n := Fin.ext h0
  have e2 : j 2 = h := Fin.ext h2
  have e3 : j 3 = w := Fin.ext h3
  have h1' : (j 1).val = c.val := h1
  rw [Block.scaled_apply X c h w, G_lo x j c h1', e0, e2, e3]
  unfold chanSq
  simp only [hX]

/-- If the block `X` is sample `n` of `x`, the normalized means of `X` spread over the planes are channels [256, 512) of
    sample `n` of the specification. -/
theorem pooled_block (X : S1x256x64x64.Idx → EReal) (x : SIn.Idx → EReal) (n : Fin 32)
    (hX : ∀ (c : Fin 256) (h w : Fin 64), X (ix4 0 c h w) = x (ix4 n c h w))
    (y : S1x256x64x64.Idx) (j : SOut.Idx) (h0 : (j 0).val = n.val) (h1 : (j 1).val = 256 + (y 1).val) :
    k0_pay4 (F := Ideal) (k0_pay2 (F := Ideal) X) y = G x j := by
  obtain ⟨c, h, w, rfl⟩ := blockIdx_eq y
  have e0 : j 0 = n := Fin.ext h0
  have h1' : (j 1).val = 256 + c.val := h1
  rw [Block.spread_apply _ c h w, Block.pooled_apply X c, G_hi x j c h1', e0]
  unfold chanSum
  simp only [hX]

/-! ## The run: point by point, then the whole array -/

variable (m : (ℓ : Loc nD τ sig) → Buf (Elt Ideal) ℓ) (ρ : Dev nD → PrngReg)

/-- The argument array on core `c`. -/
abbrev xin (c : Dev nD) : SIn.Idx → EReal := m ((c : Thread nD τ).loc main_arg0)

/-- The printed index maps, decided over the 64 points: point `t` is sample `t / 2` in phase `t % 2`; the input window sits on
    sample `t / 2`, the output window on half `t % 2` of that sample's channels. -/
theorem idx_facts : ∀ t : Fin cfg0.N,
    win0_0.index t (0 : Fin 4) = t.val / 2 ∧ win0_0.index t (1 : Fin 4) = 0 ∧ win0_0.index t (2 : Fin 4) = 0 ∧ win0_0.index t (3 : Fin 4) = 0
    ∧ win0_1.index t (0 : Fin 4) = t.val / 2 ∧ win0_1.index t (1 : Fin 4) = t.val % 2 ∧ win0_1.index t (2 : Fin 4) = 0 ∧ win0_1.index t (3 : Fin 4) = 0 :=
  (by decide +kernel : ∀ t : Fin grid0.N, _)

/-- The input block at point `t` is sample `t / 2` of the argument. -/
theorem iblk_apply (c : Dev nD) (t : Fin cfg0.N) (n : Fin 32) (hn : n.val = t.val / 2) (ch : Fin 256) (h w : Fin 64) :
    (iblk m c 0 t : S1x256x64x64.Idx → EReal) (ix4 0 ch h w) = xin m c (ix4 n ch h w) := by
  obtain ⟨e0, e1, e2, e3, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = n.val; omega
  | ⟨1, _⟩ => show win0_0.index t (1 : Fin 4) * 256 + 1 * ch.val = ch.val; omega
  | ⟨2, _⟩ => show win0_0.index t (2 : Fin 4) * 64 + 1 * h.val = h.val; omega
  | ⟨3, _⟩ => show win0_0.index t (3 : Fin 4) * 64 + 1 * w.val = w.val; omega

/-- WHAT POINT `t` WRITES BACK is block `t` of the specification of the argument. -/
theorem flushed_eq (c : Dev nD) (t : Fin cfg0.N) :
    (dats m 0 c).flushed 1 t = ((cfg0.win 1).blk t).view.read (Elt Ideal) (G (xin m c)) := by
  have hN : t.val < 64 := lt_of_lt_of_eq t.isLt N_0
  obtain ⟨-, -, -, -, e0, e1, e2, e3⟩ := idx_facts t
  by_cases h0 : t.val % 2 = 0
  · have h1 : ¬t.val % 2 = 1 := by omega
    rw [Value.flushed1_A m c t h0 h1, outA]
    funext y
    rw [View.read_apply]
    refine scaled_block (iblk m c 0 t) (xin m c) ⟨t.val / 2, by omega⟩ (iblk_apply m c t ⟨t.val / 2, by omega⟩ rfl) y _ ?_ ?_ ?_ ?_
    · show win0_1.index t (0 : Fin 4) * 1 + 1 * (y 0).val = t.val / 2
      have hy : (y 0).val < 1 := (y 0).isLt
      omega
    · show win0_1.index t (1 : Fin 4) * 256 + 1 * (y 1).val = (y 1).val
      omega
    · show win0_1.index t (2 : Fin 4) * 64 + 1 * (y 2).val = (y 2).val
      omega
    · show win0_1.index t (3 : Fin 4) * 64 + 1 * (y 3).val = (y 3).val
      omega
  · have h1 : t.val % 2 = 1 := by omega
    have hlt : t.val - 1 < cfg0.N := Nat.lt_of_le_of_lt (Nat.sub_le _ _) t.isLt
    have hs : (outsAt0 m c (t.val - 1) hlt).2 = k0_pay2 (iblk m c 0 ⟨t.val - 1, hlt⟩) := by
      rw [outsAt0_A m c ⟨t.val - 1, hlt⟩ (by show (t.val - 1) % 2 = 0; omega) (by show ¬(t.val - 1) % 2 = 1; omega)]
      dsimp only
      exact soutA c _ _ _ _ _ _ _ _ _ _
    rw [Value.flushed1_B m c t h0 h1, outB, hs]
    funext y
    rw [View.read_apply]
    refine pooled_block (iblk m c 0 ⟨t.val - 1, hlt⟩) (xin m c) ⟨t.val / 2, by omega⟩
      (iblk_apply m c ⟨t.val - 1, hlt⟩ ⟨t.val / 2, by omega⟩ (by show t.val / 2 = (t.val - 1) / 2; omega)) y _ ?_ ?_
    · show win0_1.index t (0 : Fin 4) * 1 + 1 * (y 0).val = t.val / 2
      have hy : (y 0).val < 1 := (y 0).isLt
      omega
    · show win0_1.index t (1 : Fin 4) * 256 + 1 * (y 1).val = 256 + (y 1).val
      omega

/-- An index of the result array is in point `t`'s block iff each coordinate is in the block's range on its axis. -/
theorem mem_blk (t : Fin cfg0.N) (i : SOut.Idx) :
    i ∈ ((cfg0.win 1).blk t).view.set ↔ ∀ a : Fin 4, win0_1.index t a * S1x256x64x64.size a ≤ (i a).val
      ∧ (i a).val < win0_1.index t a * S1x256x64x64.size a + S1x256x64x64.size a := by
  show i ∈ ((View.whole main_v0).slice (win0_1.rect t)).set ↔ _
  rw [View.set_slice_whole, Rect.mem_set_unit]
  exact Iff.rfl

/-- THE RESULT ARRAY after the run is the specification of the argument: entry (n, C, h, w) lies in the block of point
    2 n + C / 256, and every point writes its block back. -/
theorem final (c : Dev nD) : (dats m 0 c).arrAt 1 cfg0.N = G (xin m c) :=
  (dats m 0 c).arrAt_eq_of_cover 1 (G (xin m c)) (fun t _ => flushed_eq m c t) fun i => by
    have i0 : (i 0).val < 32 := (i 0).isLt
    have i1 : (i 1).val < 512 := (i 1).isLt
    have i2 : (i 2).val < 64 := (i 2).isLt
    have i3 : (i 3).val < 64 := (i 3).isLt
    have hN : cfg0.N = 64 := N_0
    refine ⟨⟨2 * (i 0).val + (i 1).val / 256, by omega⟩, flush0_1 _, ?_⟩
    obtain ⟨-, -, -, -, e0, e1, e2, e3⟩ := idx_facts ⟨2 * (i 0).val + (i 1).val / 256, by omega⟩
    rw [mem_blk]
    intro a
    match a with
    | ⟨0, _⟩ => show win0_1.index _ (0 : Fin 4) * 1 ≤ (i 0).val ∧ (i 0).val < win0_1.index _ (0 : Fin 4) * 1 + 1
                rw [e0]; show (2 * (i 0).val + (i 1).val / 256) / 2 * 1 ≤ (i 0).val ∧ (i 0).val < (2 * (i 0).val + (i 1).val / 256) / 2 * 1 + 1; omega
    | ⟨1, _⟩ => show win0_1.index _ (1 : Fin 4) * 256 ≤ (i 1).val ∧ (i 1).val < win0_1.index _ (1 : Fin 4) * 256 + 256
                rw [e1]; show (2 * (i 0).val + (i 1).val / 256) % 2 * 256 ≤ (i 1).val ∧ (i 1).val < (2 * (i 0).val + (i 1).val / 256) % 2 * 256 + 256; omega
    | ⟨2, _⟩ => show win0_1.index _ (2 : Fin 4) * 64 ≤ (i 2).val ∧ (i 2).val < win0_1.index _ (2 : Fin 4) * 64 + 64
                rw [e2]; omega
    | ⟨3, _⟩ => show win0_1.index _ (3 : Fin 4) * 64 ≤ (i 3).val ∧ (i 3).val < win0_1.index _ (3 : Fin 4) * 64 + 64
                rw [e3]; omega

/-- The kernel's run, read: its result array ends at the specification of the argument array, the argument unchanged. -/
theorem run : θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨((h c).1).trans (final m c), (h c).2⟩) (Value.run_blocks m ρ)

end Cert.KernelIdeal.KValue

end
-- ==== Proof.RefBlock.lean ====
/-
  The reference body's stored values, read at an index, on the extended reals.

  On one sample's block Y[0, c, p] (a plane flattened to its 4096 positions p) the body stores in plane 0 of its output
  Y[0, c, p] · rsqrt (max (∑_p' Y[0, c, p']²) ε) (`scaled_apply`) and in plane 1, at every position p, entry c of the vector
  μ[c] · rsqrt (max (∑_c' μ[c']²) ε),  μ[c] = (∑_p' Y[0, c, p']) · 2⁻¹²  (`pooled_apply`). The reshapes and broadcasts in between only
  rename indices: each is read at the index it names, the reductions as finite sums over the reduced coordinate.
-/
import proofs.«135117_g2000705136397570_pallasbulk_321_5_alg».proof.Proof.Spec
import proofs.«135117_g2000705136397570_pallasbulk_321_5_alg».proof.Proof.Gen.ReferenceIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Block

open Idealize.ShloMosaic Idealize.ShloMosaic.ValueIdx Cert.ReferenceIdeal Cert.ReferenceIdeal.Gen Cert.Spec

/-- The first payload is a shape cast to the same shape: the input itself. -/
private theorem pay1_eq (Y : S1x256x4096.Idx → EReal) : k0_pay1 (F := Ideal) Y = Y := by
  unfold k0_pay1
  exact shapeCast_self _ _

/-- The index a sum over the last axis of a [1, 256, 4096] block inserts its coordinate into. -/
private theorem lift_last (h : S1x256x4096.Reduces [2] S1x256) (c : Fin 256) (p : Fin 4096) :
    h.lift (ix2 0 c) p = ix3 0 c p := by
  funext a
  match a with
  | ⟨0, _⟩ => exact Fin.ext rfl
  | ⟨1, _⟩ => exact Fin.ext rfl
  | ⟨2, _⟩ => exact Fin.ext rfl

/-- The index a sum over the middle axis of a [1, 256, 1] column inserts its coordinate into. -/
private theorem lift_mid (h : S1x256x1.Reduces [1] S1x1) (c : Fin 256) :
    h.lift (ix2 0 0) c = ix3 0 c 0 := by
  funext a
  match a with
  | ⟨0, _⟩ => exact Fin.ext rfl
  | ⟨1, _⟩ => exact Fin.ext rfl
  | ⟨2, _⟩ => exact Fin.ext rfl

/-- A sum over the last axis of a [1, 256, 4096] block, kept as a [1, 256, 1] column: entry (0, c, 0) is the sum of row c. -/
private theorem rowSum_apply (V : FVec Ideal S1x256x4096 .f32) (hφ : FKind.Formats FTy.f32)
    (hacc : (0x00000000#32 : BitVec 32) = FKind.add.neutral .f32 hφ) (c : Fin 256) :
    shapeCast S1x256x1
        (multiReduction (F := Ideal) .add [2] S1x256 V 0x00000000#32 reduces_S1x256x4096_S1x256 hφ hacc)
        shapeCasts_S1x256_S1x256x1 (ix3 0 c 0)
      = ∑ p' : Fin 4096, V (ix3 0 c p') := by
  refine (shapeCast_apply _ _ (ix3 0 c 0) (ix2 0 c) ?_).trans ?_
  · rw [Shape.rowMajor_val_two, Shape.rowMajor_val_three]
    show (0 : ℕ) * 256 + c.val = ((0 : ℕ) * 256 + c.val) * 1 + 0
    omega
  refine (Ideal.multiReduction_add_single _ _ _ _ _ _).trans ?_
  exact Finset.sum_congr rfl fun p' _ => congrArg V (lift_last _ c p')

/-- A [1, 256, 1] column times the reciprocal root of its clamped sum of squares, entry (0, c, 0). -/
private theorem normalize_apply (M : FVec Ideal S1x256x1 .f32) (hφ : FKind.Formats FTy.f32)
    (hacc : (0x00000000#32 : BitVec 32) = FKind.add.neutral .f32 hφ) (c : Fin 256) :
    mulf M
        (broadcastTo S1x256x1
          (rsqrt
            (maximumf
              (shapeCast S1x1x1
                (multiReduction (F := Ideal) .add [1] S1x1 (mulf M M) 0x00000000#32 reduces_S1x256x1_S1x1 hφ hacc)
                shapeCasts_S1x1_S1x1x1)
              (broadcast S1x1x1 (Scalar.ofBits (F := Ideal) .f32 0x179ABE15#32))))
          broadcasts_S1x1x1_S1x256x1)
        (ix3 0 c 0)
      = M (ix3 0 c 0) * Ideal.rsqrt (max (∑ c' : Fin 256, M (ix3 0 c' 0) * M (ix3 0 c' 0)) epsSq) := by
  refine (mulf_apply _ _ _).trans ?_
  refine congrArg (M (ix3 0 c 0) * ·) ?_
  refine (broadcastTo_apply _ _ (ix3 0 c 0) (ix3 0 0 0) ?_).trans ?_
  · intro a
    match a with
    | ⟨0, _⟩ => rfl
    | ⟨1, _⟩ => rfl
    | ⟨2, _⟩ => rfl
  refine congrArg (fun q => Ideal.rsqrt (max q epsSq)) ?_
  refine (shapeCast_apply _ _ (ix3 0 0 0) (ix2 0 0) ?_).trans ?_
  · rw [Shape.rowMajor_val_two, Shape.rowMajor_val_three]
    rfl
  refine (Ideal.multiReduction_add_single _ _ _ _ _ _).trans ?_
  exact Finset.sum_congr rfl fun c' _ => congrArg (mulf M M) (lift_mid _ c')

/-- The scaled rows the fused body stores in plane 0: entry (c, p) is the input's entry times the row's factor. -/
theorem scaled_apply (Y : S1x256x4096.Idx → EReal) (c : Fin 256) (p : Fin 4096) :
    k0_pay2 (F := Ideal) Y (ix4 0 0 c p)
      = Y (ix3 0 c p) * scaleOf (∑ p' : Fin 4096, Y (ix3 0 c p') * Y (ix3 0 c p')) := by
  unfold k0_pay2
  rw [pay1_eq]
  refine (shapeCast_apply _ _ (ix4 0 0 c p) (ix3 0 c p) ?_).trans ?_
  · rw [Shape.rowMajor_val_three, Shape.rowMajor_val_four]
    rfl
  refine (mulf_apply _ _ _).trans ?_
  refine congrArg (Y (ix3 0 c p) * ·) ?_
  refine (broadcastTo_apply _ _ (ix3 0 c p) (ix3 0 c 0) ?_).trans ?_
  · intro a
    match a with
    | ⟨0, _⟩ => rfl
    | ⟨1, _⟩ => rfl
    | ⟨2, _⟩ => rfl
  unfold scaleOf
  refine congrArg (fun q => Ideal.rsqrt (max q epsSq)) ?_
  exact rowSum_apply (mulf Y Y) _ _ c

/-- The normalized vector of means the fused body spreads over plane 1: entry (c, p) is entry c of the vector. -/
theorem pooled_apply (Y : S1x256x4096.Idx → EReal) (c : Fin 256) (p : Fin 4096) :
    k0_pay3 (F := Ideal) Y (ix4 0 0 c p) = poolOf (fun c' => ∑ p' : Fin 4096, Y (ix3 0 c' p')) c := by
  unfold k0_pay3
  rw [pay1_eq]
  refine (broadcastTo_apply _ _ (ix4 0 0 c p) (ix4 0 0 c 0) ?_).trans ?_
  · intro a
    match a with
    | ⟨0, _⟩ => rfl
    | ⟨1, _⟩ => rfl
    | ⟨2, _⟩ => rfl
    | ⟨3, _⟩ => rfl
  rw [shapeCast_self]
  refine (shapeCast_apply _ _ (ix4 0 0 c 0) (ix3 0 c 0) ?_).trans ?_
  · rw [Shape.rowMajor_val_three, Shape.rowMajor_val_four]
    rfl
  refine (normalize_apply _ _ _ c).trans ?_
  unfold poolOf
  have hM : ∀ c' : Fin 256,
      mulf (shapeCast S1x256x1
          (multiReduction (F := Ideal) .add [2] S1x256 Y 0x00000000#32 reduces_S1x256x4096_S1x256 (.inl rfl) rfl)
          shapeCasts_S1x256_S1x256x1)
        (broadcast S1x256x1 (Scalar.ofBits (F := Ideal) .f32 0x39800000#32)) (ix3 0 c' 0)
      = (∑ p' : Fin 4096, Y (ix3 0 c' p')) * invHW := fun c' =>
    (mulf_apply _ _ _).trans (congrArg (· * invHW) (rowSum_apply Y _ _ c'))
  rw [hM c]
  refine congrArg (fun q : EReal => ((∑ p' : Fin 4096, Y (ix3 0 c p')) * invHW) * Ideal.rsqrt (max q epsSq)) ?_
  exact Finset.sum_congr rfl fun c' _ => by rw [hM c']

end Cert.ReferenceIdeal.Block

end
-- ==== Proof.RefBridge.lean ====
/-
  A plane flattened row after row, against the specification.

  If X3[n, c, p] = x[n, c, p / 64, p % 64] is the input with each 64 x 64 plane laid out as 4096 positions, then the sums over the
  positions p' of a flattened plane are the plane sums of the specification (`Spec.sum_flat`), so the flattened formulas — the entry
  times the factor of its row's sum of squares; entry c of the normalized vector of row means — are the specification `G` at the
  index j with 64·j₂ + j₃ = p and j₁ = c (first half of the channels), resp. j₁ = 256 + c (second half).
-/
import proofs.«135117_g2000705136397570_pallasbulk_321_5_alg».proof.Proof.Spec

noncomputable section

open scoped BigOperators

namespace Cert.Spec

open Idealize.ShloMosaic Idealize.ShloMosaic.ValueIdx

/-- The sum of a flattened plane is the plane's sum. -/
theorem flat_sum (x : SIn.Idx → EReal) (X3 : (⟨3, ![32, 256, 4096]⟩ : Shape).Idx → EReal)
    (hX : ∀ (n : Fin 32) (c : Fin 256) (p : Fin 4096),
      X3 (ix3 n c p) = x (ix4 n c ⟨p.val / 64, by have := p.isLt; omega⟩ ⟨p.val % 64, Nat.mod_lt _ (by decide)⟩))
    (n : Fin 32) (c : Fin 256) : ∑ p' : Fin 4096, X3 (ix3 n c p') = chanSum x n c := by
  simp only [hX]
  exact sum_flat fun h w => x (ix4 n c h w)

/-- The sum of the squares of a flattened plane is the plane's sum of squares. -/
theorem flat_sq (x : SIn.Idx → EReal) (X3 : (⟨3, ![32, 256, 4096]⟩ : Shape).Idx → EReal)
    (hX : ∀ (n : Fin 32) (c : Fin 256) (p : Fin 4096),
      X3 (ix3 n c p) = x (ix4 n c ⟨p.val / 64, by have := p.isLt; omega⟩ ⟨p.val % 64, Nat.mod_lt _ (by decide)⟩))
    (n : Fin 32) (c : Fin 256) : ∑ p' : Fin 4096, X3 (ix3 n c p') * X3 (ix3 n c p') = chanSq x n c := by
  simp only [hX]
  exact sum_flat fun h w => x (ix4 n c h w) * x (ix4 n c h w)

/-- A scaled entry of a flattened plane is the specification on the first half of the channels. -/
theorem flat_lo (x : SIn.Idx → EReal) (X3 : (⟨3, ![32, 256, 4096]⟩ : Shape).Idx → EReal)
    (hX : ∀ (n : Fin 32) (c : Fin 256) (p : Fin 4096),
      X3 (ix3 n c p) = x (ix4 n c ⟨p.val / 64, by have := p.isLt; omega⟩ ⟨p.val % 64, Nat.mod_lt _ (by decide)⟩))
    (n : Fin 32) (c : Fin 256) (p : Fin 4096) (j : SOut.Idx) (h0 : (j 0).val = n.val) (h1 : (j 1).val = c.val)
    (h23 : 64 * (j 2).val + (j 3).val = p.val) :
    X3 (ix3 n c p) * scaleOf (∑ p' : Fin 4096, X3 (ix3 n c p') * X3 (ix3 n c p')) = G x j := by
  have e0 : j 0 = n := Fin.ext h0
  have j3 : (j 3).val < 64 := (j 3).isLt
  have e2 : (⟨p.val / 64, by have := p.isLt; omega⟩ : Fin 64) = j 2 := Fin.ext (by show p.val / 64 = (j 2).val; omega)
  have e3 : (⟨p.val % 64, Nat.mod_lt _ (by decide)⟩ : Fin 64) = j 3 := Fin.ext (by show p.val % 64 = (j 3).val; omega)
  rw [flat_sq x X3 hX n c, hX n c p, G_lo x j c h1, e0, e2, e3]

/-- Entry c of the normalized vector of the means of the flattened planes is the specification on the second half of the channels. -/
theorem flat_hi (x : SIn.Idx → EReal) (X3 : (⟨3, ![32, 256, 4096]⟩ : Shape).Idx → EReal)
    (hX : ∀ (n : Fin 32) (c : Fin 256) (p : Fin 4096),
      X3 (ix3 n c p) = x (ix4 n c ⟨p.val / 64, by have := p.isLt; omega⟩ ⟨p.val % 64, Nat.mod_lt _ (by decide)⟩))
    (n : Fin 32) (c : Fin 256) (j : SOut.Idx) (h0 : (j 0).val = n.val) (h1 : (j 1).val = 256 + c.val) :
    poolOf (fun c' => ∑ p' : Fin 4096, X3 (ix3 n c' p')) c = G x j := by
  have e0 : j 0 = n := Fin.ext h0
  have e : (fun c' => ∑ p' : Fin 4096, X3 (ix3 n c' p')) = chanSum x n := funext fun c' => flat_sum x X3 hX n c'
  rw [e, G_hi x j c h1, e0]

end Cert.Spec

end
-- ==== Proof.RefValue.lean ====
/-
  The reference's run, read as a value: its result array ends at the specification `G` of its argument.

  The reference lays each 64 x 64 plane out as a row of 4096 positions (position p holds the plane's entry (p / 64, p % 64)), runs one
  body per sample that stores the scaled rows in plane 0 and the normalized row means, spread along every row, in plane 1 of a
  [32, 2, 256, 4096] array — one function `R` of the flattened input, whose 32 sample blocks tile that array —, and reshapes the
  array to [32, 512, 64, 64], which reads entry (j₀, j₁, j₂, j₃) at (j₀, j₁ / 256, j₁ % 256, 64·j₂ + j₃): plane 0 becomes channels
  [0, 256), plane 1 channels [256, 512), and a sum along a flattened row is the plane's sum, so the result is `G`.
-/
import proofs.«135117_g2000705136397570_pallasbulk_321_5_alg».proof.Proof.Spec
import proofs.«135117_g2000705136397570_pallasbulk_321_5_alg».proof.Proof.RefBlock
import proofs.«135117_g2000705136397570_pallasbulk_321_5_alg».proof.Proof.RefBridge
import proofs.«135117_g2000705136397570_pallasbulk_321_5_alg».proof.Proof.Gen.ReferenceIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open scoped BigOperators

namespace Cert.ReferenceIdeal.RefValue

open Idealize.ShloMosaic Idealize.ShloMosaic.TcCoe Idealize.ShloMosaic.ValueIdx Idealize.SL.Sem
open Idealize.ShloMosaic.Pipeline (Dat)
open Cert.ReferenceIdeal Cert.ReferenceIdeal.Gen Cert.Spec

variable (m : (ℓ : Loc nD τ sig) → Buf (Elt Ideal) ℓ) (ρ : Dev nD → PrngReg)

/-! ## The region's result as one function of its input array -/

/-- Entry (n, k, c, p) of the region's result over an input of N samples: plane k = 0 holds the input's rows each
    scaled by its own factor, plane k = 1 holds the normalized vector of row sums spread along every row. -/
def entry {N : Nat} (X : (⟨3, ![N, 256, 4096]⟩ : Shape).Idx → EReal) (n : Fin N) (k : Fin 2) (c : Fin 256) (p : Fin 4096) : EReal :=
  if k.val = 0 then
    X (ix3 n c p) * scaleOf (∑ p' : Fin 4096, X (ix3 n c p') * X (ix3 n c p'))
  else
    poolOf (fun c' => ∑ p' : Fin 4096, X (ix3 n c' p')) c

theorem entry_zero {N : Nat} (X : (⟨3, ![N, 256, 4096]⟩ : Shape).Idx → EReal) (n : Fin N) (c : Fin 256) (p : Fin 4096) :
    entry X n 0 c p = X (ix3 n c p) * scaleOf (∑ p' : Fin 4096, X (ix3 n c p') * X (ix3 n c p')) := if_pos rfl

theorem entry_one {N : Nat} (X : (⟨3, ![N, 256, 4096]⟩ : Shape).Idx → EReal) (n : Fin N) (c : Fin 256) (p : Fin 4096) :
    entry X n 1 c p = poolOf (fun c' => ∑ p' : Fin 4096, X (ix3 n c' p')) c := if_neg (by decide)

/-- An entry depends on its coordinates only through their values. -/
theorem entry_congr {N : Nat} (X : (⟨3, ![N, 256, 4096]⟩ : Shape).Idx → EReal) {n n' : Fin N} {k k' : Fin 2} {c c' : Fin 256}
    {p p' : Fin 4096} (hn : n.val = n'.val) (hk : k.val = k'.val) (hc : c.val = c'.val) (hp : p.val = p'.val) :
    entry X n k c p = entry X n' k' c' p' := by
  obtain rfl := Fin.ext hn; obtain rfl := Fin.ext hk; obtain rfl := Fin.ext hc; obtain rfl := Fin.ext hp; rfl

/-- The region's whole result array from its whole input array. -/
def R (X : S32x256x4096.Idx → EReal) : S32x2x256x4096.Idx → EReal := fun i => entry X (i 0) (i 1) (i 2) (i 3)

theorem hz3 : (![0, 0, 0] : Fin 3 → Nat) = fun _ => 0 := funext fun a => by fin_cases a <;> rfl

/-- The piece stored in plane 1, at an index of the piece. -/
theorem piece_hi (Y : Vec Ideal S1x256x4096 .f32) (x : S1x1x256x4096.Idx) :
    k0_pay3 (F := Ideal) (View.ld Y r0_0) x = entry Y 0 (r0_2.emb x 1) (r0_2.emb x 2) (r0_2.emb x 3) := by
  rw [View.ld_unit_zero (S := S1x256x4096) hz3]
  obtain ⟨a, b, c, p, rfl⟩ : ∃ (a : Fin 1) (b : Fin 1) (c : Fin 256) (p : Fin 4096), x = ix4 a b c p :=
    ⟨x 0, x 1, x 2, x 3, eq_ix4 x⟩
  obtain rfl : a = 0 := Subsingleton.elim _ _
  obtain rfl : b = 0 := Subsingleton.elim _ _
  refine (Block.pooled_apply Y c p).trans ((entry_one Y 0 c p).symm.trans (entry_congr Y rfl ?_ ?_ ?_))
  · show 1 = 1 + 1 * 0; rfl
  · show c.val = 0 + 1 * c.val; omega
  · show p.val = 0 + 1 * p.val; omega

/-- The piece stored in plane 0, at an index of the piece. -/
theorem piece_lo (Y : Vec Ideal S1x256x4096 .f32) (x : S1x1x256x4096.Idx) :
    k0_pay2 (F := Ideal) (View.ld Y r0_0) x = entry Y 0 (r0_1.emb x 1) (r0_1.emb x 2) (r0_1.emb x 3) := by
  rw [View.ld_unit_zero (S := S1x256x4096) hz3]
  obtain ⟨a, b, c, p, rfl⟩ : ∃ (a : Fin 1) (b : Fin 1) (c : Fin 256) (p : Fin 4096), x = ix4 a b c p :=
    ⟨x 0, x 1, x 2, x 3, eq_ix4 x⟩
  obtain rfl : a = 0 := Subsingleton.elim _ _
  obtain rfl : b = 0 := Subsingleton.elim _ _
  refine (Block.scaled_apply Y c p).trans ((entry_zero Y 0 c p).symm.trans (entry_congr Y rfl ?_ ?_ ?_))
  · show 0 = 0 + 1 * 0; rfl
  · show c.val = 0 + 1 * c.val; omega
  · show p.val = 0 + 1 * p.val; omega

/-- What the body leaves in the result's staging buffer, from the input block: both planes, entry by entry. -/
theorem out_apply (Y : Vec Ideal S1x256x4096 .f32) (y : S1x2x256x4096.Idx) :
    out0_1 (F := Ideal) Y y = entry Y 0 (y 1) (y 2) (y 3) := by
  unfold out0_1
  refine View.canon_apply_of_pieces (Val := Elt Ideal) (S := S1x2x256x4096) (e := .f32)
    (fun y : S1x2x256x4096.Idx => entry Y 0 (y 1) (y 2) (y 3)) _ ?_ y (cover0_1 _ _ y)
  intro pc hpc
  rcases List.mem_cons.mp hpc with rfl | hpc
  · exact fun x => piece_hi Y x
  rcases List.mem_cons.mp hpc with rfl | hpc
  · exact fun x => piece_lo Y x
  · exact absurd hpc (List.not_mem_nil)

/-! ## What a grid point writes back -/

/-- An entry of a one-sample block that is sample n of an array is that array's entry at sample n. -/
theorem entry_block {N : Nat} (X : (⟨3, ![N, 256, 4096]⟩ : Shape).Idx → EReal) (Y : (⟨3, ![1, 256, 4096]⟩ : Shape).Idx → EReal)
    (n : Fin N) (h : ∀ y, Y y = X (ix3 n (y 1) (y 2))) (k : Fin 2) (c : Fin 256) (p : Fin 4096) :
    entry Y 0 k c p = entry X n k c p := by
  have h' : ∀ (c : Fin 256) (p : Fin 4096), Y (ix3 0 c p) = X (ix3 n c p) := fun c p => h _
  unfold entry
  simp only [h']

/-- The printed index maps over the grid: point t's blocks are sample t, every other axis whole. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

theorem lt32 (t : Fin cfg0.N) : t.val < 32 := lt_of_lt_of_eq t.isLt N_0

/-- The input block at point t, entry by entry: sample t of the region's input array. -/
theorem iblk_apply (c : Dev nD) (t : Fin cfg0.N) (y : S1x256x4096.Idx) :
    (iblk m c 0 t : Vec Ideal S1x256x4096 .f32) y
      = (V m c main_v0 : S32x256x4096.Idx → EReal) (ix3 ⟨t.val, lt32 t⟩ (y 1) (y 2)) := by
  obtain ⟨e0, e1, e2, -⟩ := idx_facts t
  show V m c main_v0 (((cfg0.win 0).blk t).view.emb y) = _
  refine congrArg _ (funext fun a => Fin.ext ?_)
  match a with
  | ⟨0, _⟩ => show win0_0.index t (0 : Fin 3) * 1 + 1 * (y 0).val = t.val; have : (y 0).val < 1 := (y 0).isLt; omega
  | ⟨1, _⟩ => show win0_0.index t (1 : Fin 3) * 256 + 1 * (y 1).val = (y 1).val; omega
  | ⟨2, _⟩ => show win0_0.index t (2 : Fin 3) * 4096 + 1 * (y 2).val = (y 2).val; omega

/-- WHAT POINT t WRITES BACK is block t of the one function R of the region's input array. -/
theorem flushed_eq (c : Dev nD) (t : Fin cfg0.N) :
    (dats m 0 c).flushed 1 t = ((cfg0.win 1).blk t).view.read (Elt Ideal) (R (V m c main_v0)) := by
  show (cfg0.win 1).cut (grid0.coords t) ((dats m 0 c).after 1 t) = _
  rw [after0_1]
  obtain ⟨-, -, -, e0, e1, e2, e3⟩ := idx_facts t
  funext y
  show out0_1 (F := Ideal) (iblk m c 0 t) y = R (V m c main_v0) (((cfg0.win 1).blk t).view.emb y)
  rw [out_apply]
  refine (entry_block (V m c main_v0 : S32x256x4096.Idx → EReal) (iblk m c 0 t) ⟨t.val, lt32 t⟩ (iblk_apply m c t) _ _ _).trans ?_
  show _ = entry (V m c main_v0 : S32x256x4096.Idx → EReal) _ _ _ _
  refine entry_congr _ ?_ ?_ ?_ ?_
  · show t.val = win0_1.index t (0 : Fin 4) * 1 + 1 * (y 0).val; have : (y 0).val < 1 := (y 0).isLt; omega
  · show (y 1).val = win0_1.index t (1 : Fin 4) * 2 + 1 * (y 1).val; omega
  · show (y 2).val = win0_1.index t (2 : Fin 4) * 256 + 1 * (y 2).val; omega
  · show (y 3).val = win0_1.index t (3 : Fin 4) * 4096 + 1 * (y 3).val; omega

/-! ## The blocks cover the array -/

/-- Every index of the region's result array is in the block of the point of its sample. -/
theorem cover (i : S32x2x256x4096.Idx) :
    ∃ t : Fin cfg0.N, (cfg0.win 1).flush t = true ∧ i ∈ ((cfg0.win 1).blk t).view.set := by
  have h0 : (i 0).val < 32 := (i 0).isLt
  have h1 : (i 1).val < 2 := (i 1).isLt
  have h2 : (i 2).val < 256 := (i 2).isLt
  have h3 : (i 3).val < 4096 := (i 3).isLt
  obtain ⟨t, ht⟩ : ∃ t : Fin cfg0.N, t.val = (i 0).val := ⟨⟨(i 0).val, lt_of_lt_of_eq h0 N_0.symm⟩, rfl⟩
  obtain ⟨-, -, -, e0, e1, e2, e3⟩ := idx_facts t
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 2 ≤ (i 1).val ∧ (i 1).val < win0_1.index t (1 : Fin 4) * 2 + 2; omega
  | ⟨2, _⟩ => show win0_1.index t (2 : Fin 4) * 256 ≤ (i 2).val ∧ (i 2).val < win0_1.index t (2 : Fin 4) * 256 + 256; omega
  | ⟨3, _⟩ => show win0_1.index t (3 : Fin 4) * 4096 ≤ (i 3).val ∧ (i 3).val < win0_1.index t (3 : Fin 4) * 4096 + 4096; omega

/-- THE REGION'S RESULT ARRAY after the run is R of the region's input array. -/
theorem final (c : Dev nD) : (dats m 0 c).arrAt 1 cfg0.N = R (V m c main_v0) :=
  (dats m 0 c).arrAt_eq_of_cover 1 (R (V m c main_v0)) (fun t _ => flushed_eq m c t) cover

/-! ## The two reshapes around the region -/

/-- The region's input array is the argument laid out with each plane as one row of 4096. -/
theorem V_v0 (c : Dev nD) : (V m c main_v0 : S32x256x4096.Idx → EReal)
    = shapeCast S32x256x4096 (m ((c : Thread nD τ).loc main_arg0)) shapeCasts_S32x256x64x64_S32x256x4096 := by
  show StableHlo.after hostOps0 (fun b => m (c, b)) (Proc.devRef .tc main_v0) = _
  after_results
  rfl

/-- Entry (n, c, p) of the region's input array is the argument's entry (n, c, p / 64, p % 64). -/
theorem V_v0_apply (c : Dev nD) (n : Fin 32) (ch : Fin 256) (p : Fin 4096) :
    (V m c main_v0 : S32x256x4096.Idx → EReal) (ix3 n ch p)
      = (m ((c : Thread nD τ).loc main_arg0) : SIn.Idx → EReal)
          (ix4 n ch ⟨p.val / 64, by have := p.isLt; omega⟩ ⟨p.val % 64, Nat.mod_lt _ (by decide)⟩) := by
  rw [V_v0]
  refine shapeCast_apply (s := S32x256x64x64) (t := S32x256x4096) _ _ _ _ ?_
  rw [Shape.rowMajor_val_four, Shape.rowMajor_val_three]
  show ((n.val * 256 + ch.val) * 64 + p.val / 64) * 64 + p.val % 64 = (n.val * 256 + ch.val) * 4096 + p.val
  omega

/-- The result array after the host line that follows the region: the region's result array reshaped. -/
theorem tail_v2 (c : Dev nD) : Pipeline.afterTail₀ cfgs (dats m) 0 (V0 m) [hostOps1] c main_v2
    = shapeCast S32x512x64x64 (R (V m c main_v0)) shapeCasts_S32x2x256x4096_S32x512x64x64 := by
  have e := (Pipeline.withArrays_arr spec0 launch0.win.arr_inj c (V0 m c) (fun w => (dats m 0 c).arrAt w cfg0.N) 1).trans
    (final m c)
  unfold Pipeline.afterTail₀
  show StableHlo.after hostOps1 _ (Proc.devRef .tc main_v2) = _
  after_results
  exact congrArg (fun A : S32x2x256x4096.Idx → EReal =>
    shapeCast S32x512x64x64 A shapeCasts_S32x2x256x4096_S32x512x64x64) e

/-- The reshaped result at (j₀, j₁, j₂, j₃) is the region's result at (j₀, j₁ / 256, j₁ % 256, 64·j₂ + j₃). -/
theorem reshaped_apply (X : S32x256x4096.Idx → EReal) (j : SOut.Idx) :
    shapeCast S32x512x64x64 (R X) shapeCasts_S32x2x256x4096_S32x512x64x64 j
      = entry X (j 0) ⟨(j 1).val / 256, by have : (j 1).val < 512 := (j 1).isLt; omega⟩
          ⟨(j 1).val % 256, Nat.mod_lt _ (by decide)⟩
          ⟨64 * (j 2).val + (j 3).val, by
            have : (j 2).val < 64 := (j 2).isLt
            have : (j 3).val < 64 := (j 3).isLt
            omega⟩ := by
  have h0 : (j 0).val < 32 := (j 0).isLt
  have h1 : (j 1).val < 512 := (j 1).isLt
  have h2 : (j 2).val < 64 := (j 2).isLt
  have h3 : (j 3).val < 64 := (j 3).isLt
  refine (shapeCast_apply (s := S32x2x256x4096) (t := S32x512x64x64) (R X) _ j
    (ix4 (j 0) ⟨(j 1).val / 256, by omega⟩ ⟨(j 1).val % 256, Nat.mod_lt _ (by decide)⟩ ⟨64 * (j 2).val + (j 3).val, by omega⟩) ?_).trans rfl
  rw [Shape.rowMajor_val_four, Shape.rowMajor_val_four]
  show (((j 0).val * 2 + (j 1).val / 256) * 256 + (j 1).val % 256) * 4096 + (64 * (j 2).val + (j 3).val)
    = (((j 0).val * 512 + (j 1).val) * 64 + (j 2).val) * 64 + (j 3).val
  omega

/-- THE RESULT ARRAY after the whole program is the specification of the argument. -/
theorem result (c : Dev nD) : Pipeline.afterTail₀ cfgs (dats m) 0 (V0 m) [hostOps1] c main_v2
    = G (m ((c : Thread nD τ).loc main_arg0)) := by
  rw [tail_v2]
  funext j
  rw [reshaped_apply]
  have h1 : (j 1).val < 512 := (j 1).isLt
  by_cases hlt : (j 1).val < 256
  · refine (entry_congr _ (k' := 0) rfl ?_ rfl rfl).trans ?_
    · show (j 1).val / 256 = 0; omega
    exact (entry_zero _ _ _ _).trans
      (flat_lo _ _ (V_v0_apply m c) _ _ _ j rfl (by show (j 1).val = (j 1).val % 256; omega) rfl)
  · refine (entry_congr _ (k' := 1) rfl ?_ rfl rfl).trans ?_
    · show (j 1).val / 256 = 1; omega
    exact (entry_one _ _ _ _).trans
      (flat_hi _ _ (V_v0_apply m c) _ _ j rfl (by show (j 1).val = 256 + (j 1).val % 256; omega))

/-! ## The run, read -/

/-- The reference's run, read: its result array ends at the specification of the argument array, the argument unchanged. -/
theorem run : θ_run (defs (F := Ideal)) (onTc (τ := τ) (main (F := Ideal))) ⟨m, fun _ => 0, ρ⟩ fun r => ∀ c : Dev nD,
      r.2.mem ((c : Thread nD τ).loc main_v2) = G (m ((c : Thread nD τ).loc main_arg0))
      ∧ r.2.mem ((c : Thread nD τ).loc main_arg0) = m ((c : Thread nD τ).loc main_arg0) := by
  exact (θ_run defs _ _).mono (fun r h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c)⟩)
    (run_main m ρ)

end Cert.ReferenceIdeal.RefValue

end
-- ==== Proof.lean ====
/-
  The certificate of the image-pooling kernel against its reference, over the extended reals.

  Both programs compute, for an input x[n, c, h, w] of 32 samples, 256 channels and a 64 x 64 plane per channel, a result of 512
  channels: channel C < 256 is the plane x[n, C] divided by its Euclidean norm (the norm's square clamped below by 1e-24), and
  channel 256 + c is, at every pixel, entry c of the vector of the sample's 256 plane means divided by that vector's Euclidean
  norm (clamped likewise). Proof/Spec.lean writes that result as ONE function `G` of the input, index by index.

  The kernel walks a grid of 32 x 2 points on the four-dimensional layout: at the first point of a sample it sums each plane over
  its rows and then over its columns, stores the scaled planes, and parks the normalized means in a scratch vector; at the second
  point it spreads the parked vector over the planes of the second half of the channels. The reference flattens each plane to 4096
  positions, computes both halves in one body per sample, and reshapes back. The two differ only in how a plane's 4096 entries are
  summed (rows then columns, against row-major positions), and a finite sum in a commutative monoid does not depend on that
  (`Spec.sum_flat`); no finiteness of the input is used.

  Proof/KernelBlock.lean and Proof/RefBlock.lean read the two bodies' stored values at an index; Proof/KernelValue.lean and
  Proof/RefValue.lean read each program's run as "the result array is `G` of the argument"; here the five claims are assembled.
-/
import proofs.«135117_g2000705136397570_pallasbulk_321_5_alg».proof.Defs
import proofs.«135117_g2000705136397570_pallasbulk_321_5_alg».proof.Proof.Gen.Kernel
import proofs.«135117_g2000705136397570_pallasbulk_321_5_alg».proof.Proof.Gen.Kernel.Frame
import proofs.«135117_g2000705136397570_pallasbulk_321_5_alg».proof.Proof.Gen.KernelIdeal
import proofs.«135117_g2000705136397570_pallasbulk_321_5_alg».proof.Proof.Gen.KernelIdeal.Frame
import proofs.«135117_g2000705136397570_pallasbulk_321_5_alg».proof.Proof.Gen.ReferenceIdeal
import proofs.«135117_g2000705136397570_pallasbulk_321_5_alg».proof.Proof.Gen.ReferenceIdeal.Frame
import proofs.«135117_g2000705136397570_pallasbulk_321_5_alg».proof.Proof.Gen.Pre_finite_inputs
import proofs.«135117_g2000705136397570_pallasbulk_321_5_alg».proof.Proof.KernelValue
import proofs.«135117_g2000705136397570_pallasbulk_321_5_alg».proof.Proof.RefValue
import Idealize.ShloMosaic.Adequacy
import Idealize.ShloMosaic.Init

noncomputable section

namespace Cert.Proof

open Idealize.ShloMosaic Idealize.SL.Sem

/-- Each program runs to the end without a fault and leaves its argument as it found it. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ => Cert.ReferenceIdeal.Gen.frame m ρ

/-- From arguments that agree, both runs end with the result array at the specification `G` of the argument. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
